-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel

variable [Facts]

def fn {F : FTy → Type} [FloatOps F] (main_arg0 : FVec F S32x512x512 .f32) (main_arg1 : FVec F S32x512x512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  main_v8
-- ==== Kernel.lean ====
abbrev S32x512x512 : Shape := ⟨3, ![32, 512, 512]⟩
abbrev S32x512x2048 : Shape := ⟨3, ![32, 512, 2048]⟩
abbrev S1x512x512 : Shape := ⟨3, ![1, 512, 512]⟩
abbrev S1x512x2048 : Shape := ⟨3, ![1, 512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512x2048, .f32⟩
  | .hbm, ⟨3, _⟩ => ⟨S32x512x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  broadcasts_S1x512_S512x512 : S1x512.Broadcasts S512x512
  concatenates_S512x512_S512x512_S512x512_S512x512_S512x2048_d1 : Shape.Concatenates [S512x512, S512x512, S512x512, S512x512] S512x2048 1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S32x512x2048.size a
  hwx0_2 : ∀ i : grid0.Coords, EltTy.bits .f32 = 32 ∨ (Rect.block (s := S32x512x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x512x2048.size a
  hwx0_3 : ∀ i : grid0.Coords, EltTy.bits .f32 = 32 ∨ (Rect.block (s := S32x512x2048) S1x512x2048.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩
abbrev S32x512x2048 : Shape := ⟨3, ![32, 512, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512x512, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512x1, .f32⟩
  | .hbm, ⟨9, _⟩ => ⟨S32x512x512, .f32⟩
  | .hbm, ⟨10, _⟩ => ⟨S32x512x512, .f32⟩
  | .hbm, ⟨11, _⟩ => ⟨S32x512x512, .f32⟩
  | .hbm, ⟨12, _⟩ => ⟨S_, .f32⟩
  | .hbm, ⟨13, _⟩ => ⟨S32x512, .f32⟩
  | .hbm, ⟨14, _⟩ => ⟨S32x512x1, .f32⟩
  | .hbm, ⟨15, _⟩ => ⟨S32x512x512, .f32⟩
  | .hbm, ⟨16, _⟩ => ⟨S32x512x512, .f32⟩
  | .hbm, ⟨17, _⟩ => ⟨S32x512x512, .f32⟩
  | .hbm, ⟨18, _⟩ => ⟨S_, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x1x512, .f32⟩
  | .hbm, ⟨24, _⟩ => ⟨S32x512x512, .f32⟩
  | .hbm, ⟨25, _⟩ => ⟨S32x512x512, .f32⟩
  | .hbm, ⟨26, _⟩ => ⟨S32x512x512, .f32⟩
  | .hbm, ⟨27, _⟩ => ⟨S_, .f32⟩
  | .hbm, ⟨28, _⟩ => ⟨S32x512, .f32⟩
  | .hbm, ⟨29, _⟩ => ⟨S32x1x512, .f32⟩
  | .hbm, ⟨30, _⟩ => ⟨S32x512x512, .f32⟩
  | .hbm, ⟨31, _⟩ => ⟨S32x512x512, .f32⟩
  | .hbm, ⟨32, _⟩ => ⟨S32x512x512, .f32⟩
  | .hbm, ⟨33, _⟩ => ⟨S32x512x512, .f32⟩
  | .hbm, ⟨34, _⟩ => ⟨S32x512x512, .f32⟩
  | .hbm, ⟨35, _⟩ => ⟨S32x512x2048, .f32⟩
  | .hbm, ⟨36, _⟩ => ⟨S32x512x512, .f32⟩
  | .hbm, ⟨37, _⟩ => ⟨S32x512x512, .f32⟩
  | .hbm, ⟨38, _⟩ => ⟨S32x512x2048, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  reducesTo_S32x512x512_S32x512_d1 : S32x512x512.ReducesTo [1] S32x512
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  concatenates_S32x512x512_S32x512x512_S32x512x512_S32x512x512_S32x512x2048_d2 : Shape.Concatenates [S32x512x512, S32x512x512, S32x512x512, S32x512x512] S32x512x2048 2
  dot_S32x512x512_S32x512x512_S32x512x512_2_2_1_1_0_0_wf : DotDims.WF S32x512x512 S32x512x512 S32x512x512 [2] [2] [1] [1] [0] [0]
  dot_S32x512x512_S32x512x512_S32x512x512_2_1_1_2_0_0_wf : DotDims.WF S32x512x512 S32x512x512 S32x512x512 [2] [1] [1] [2] [0] [0]
  dot_S32x512x512_S32x512x512_S32x512x512_1_1_2_2_0_0_wf : DotDims.WF S32x512x512 S32x512x512 S32x512x512 [1] [1] [2] [2] [0] [0]

variable [Facts₀]

def dot_S32x512x512_S32x512x512_S32x512x512_2_2_1_1_0_0 : DotDims S32x512x512 S32x512x512 S32x512x512 where
  lhsContracting := [2]
  rhsContracting := [2]
  lhsNonContracting := [1]
  rhsNonContracting := [1]
  lhsBatch := [0]
  rhsBatch := [0]
  wf := dot_S32x512x512_S32x512x512_S32x512x512_2_2_1_1_0_0_wf
def dot_S32x512x512_S32x512x512_S32x512x512_2_1_1_2_0_0 : DotDims S32x512x512 S32x512x512 S32x512x512 where
  lhsContracting := [2]
  rhsContracting := [1]
  lhsNonContracting := [1]
  rhsNonContracting := [2]
  lhsBatch := [0]
  rhsBatch := [0]
  wf := dot_S32x512x512_S32x512x512_S32x512x512_2_1_1_2_0_0_wf
def dot_S32x512x512_S32x512x512_S32x512x512_1_1_2_2_0_0 : DotDims S32x512x512 S32x512x512 S32x512x512 where
  lhsContracting := [1]
  rhsContracting := [1]
  lhsNonContracting := [2]
  rhsNonContracting := [2]
  lhsBatch := [0]
  rhsBatch := [0]
  wf := dot_S32x512x512_S32x512x512_S32x512x512_1_1_2_2_0_0_wf

class Facts : Prop extends Facts₀ where

variable [Facts]
-- ==== Proof.CoAttention.lean ====
/-
  Dual-direction softmax co-attention on one batch element, as plain mathematics over the extended reals.

  For two matrices `a`, `b` (512 rows of 512 features each) the score matrix is `e i j = ∑ d, a i d * b j d`.
  Row `i` of `e` is turned into softmax weights over `j` (shifted by the row's maximum, taken from −∞), and the
  weighted sum of `b`'s rows is the attended row `attendedA a b i`. Column `j` of `e` is turned into softmax
  weights over `i` (shifted by the column's maximum), and the weighted sum of `a`'s rows is `attendedB a b j`.
  Each output row is the four-way concatenation `[x, t, x - t, x * t]` of a row `x` with its attended row `t`.

  Nothing here evaluates anything: both programs are shown, elsewhere, to compute exactly these terms, so the only
  facts used about the extended reals are that finite sums and maxima do not depend on the order of their terms.
-/
import Idealize.ShloMosaic.PureOps.Ideal
import Idealize.ShloMosaic.Lib.ValueIdx

noncomputable section

namespace Cert.CoAttention

open Idealize.ShloMosaic Idealize.ShloMosaic.ValueIdx

/-- One batch element: 512 rows of 512 features. -/
abbrev Mat : Type := Fin 512 → Fin 512 → EReal

/-- −∞, spelt by its f32 pattern as both programs spell it (never evaluated: the same word on both sides). -/
abbrev negInf : EReal := Ideal.ofBits .f32 0xFF800000#32

/-- The score of row `i` of `a` against row `j` of `b`: their inner product. -/
def score (a b : Mat) (i j : Fin 512) : EReal := ∑ d : Fin 512, a i d * b j d

/-- The largest score in row `i`, from −∞ (and once more against −∞, as the softmax is written). -/
def rowMax (a b : Mat) (i : Fin 512) : EReal :=
  max negInf ((Finset.univ : Finset (Fin 512)).fold max negInf fun j => score a b i j)

/-- The shifted exponential of a score within its row. -/
def rowExp (a b : Mat) (i j : Fin 512) : EReal := Ideal.exp (score a b i j - rowMax a b i)

/-- The softmax weight of column `j` within row `i`. -/
def rowWeight (a b : Mat) (i j : Fin 512) : EReal := Ideal.div (rowExp a b i j) (∑ j' : Fin 512, rowExp a b i j')

/-- Row `i` of `a` attended over `b`: the rows of `b` weighted by row `i`'s softmax. -/
def attendedA (a b : Mat) : Mat := fun i d => ∑ j : Fin 512, rowWeight a b i j * b j d

/-- The largest score in column `j`, from −∞ (and once more against −∞). -/
def colMax (a b : Mat) (j : Fin 512) : EReal :=
  max negInf ((Finset.univ : Finset (Fin 512)).fold max negInf fun i => score a b i j)

/-- The shifted exponential of a score within its column. -/
def colExp (a b : Mat) (i j : Fin 512) : EReal := Ideal.exp (score a b i j - colMax a b j)

/-- The softmax weight of row `i` within column `j`. -/
def colWeight (a b : Mat) (i j : Fin 512) : EReal := Ideal.div (colExp a b i j) (∑ i' : Fin 512, colExp a b i' j)

/-- Row `j` of `b` attended over `a`: the rows of `a` weighted by column `j`'s softmax. -/
def attendedB (a b : Mat) : Mat := fun j d => ∑ i : Fin 512, colWeight a b i j * a i d

/-- The four matrices laid side by side in an output row: `x`, `t`, `x - t`, `x * t`. -/
def quad (x t : Mat) : Fin 4 → Mat := fun n => match n with
  | ⟨0, _⟩ => x
  | ⟨1, _⟩ => t
  | ⟨2, _⟩ => fun r d => x r d - t r d
  | ⟨3, _⟩ => fun r d => x r d * t r d

/-- Entry `(r, c)` of the 512 × 2048 feature block: column `c` lies in slab `c / 512` at feature `c % 512`. -/
def features (x t : Mat) (r : Fin 512) (c : Fin 2048) : EReal :=
  quad x t ⟨c.val / 512, by have := c.isLt; omega⟩ r ⟨c.val % 512, Nat.mod_lt _ (by decide)⟩

/-- Batch element `n` of a [32, 512, 512] array, as a matrix. -/
def slab (X : (⟨3, ![32, 512, 512]⟩ : Shape).Idx → EReal) (n : Fin 32) : Mat := fun i d => X (ix3 n i d)

/-- The first result, by coordinates: batch `n`'s rows of `A` with their attention over `B`. -/
def resultA (A B : (⟨3, ![32, 512, 512]⟩ : Shape).Idx → EReal) (n : Fin 32) (r : Fin 512) (c : Fin 2048) : EReal :=
  features (slab A n) (attendedA (slab A n) (slab B n)) r c

/-- The second result, by coordinates: batch `n`'s rows of `B` with their attention over `A`. -/
def resultB (A B : (⟨3, ![32, 512, 512]⟩ : Shape).Idx → EReal) (n : Fin 32) (r : Fin 512) (c : Fin 2048) : EReal :=
  features (slab B n) (attendedB (slab A n) (slab B n)) r c

/-- The first result as a [32, 512, 2048] array. -/
def arrayA (A B : (⟨3, ![32, 512, 512]⟩ : Shape).Idx → EReal) : (⟨3, ![32, 512, 2048]⟩ : Shape).Idx → EReal :=
  fun y => resultA A B ⟨(y 0).val, (y 0).isLt⟩ ⟨(y 1).val, (y 1).isLt⟩ ⟨(y 2).val, (y 2).isLt⟩

/-- The second result as a [32, 512, 2048] array. -/
def arrayB (A B : (⟨3, ![32, 512, 512]⟩ : Shape).Idx → EReal) : (⟨3, ![32, 512, 2048]⟩ : Shape).Idx → EReal :=
  fun y => resultB A B ⟨(y 0).val, (y 0).isLt⟩ ⟨(y 1).val, (y 1).isLt⟩ ⟨(y 2).val, (y 2).isLt⟩

theorem arrayA_ix3 (A B : (⟨3, ![32, 512, 512]⟩ : Shape).Idx → EReal) (n : Fin 32) (r : Fin 512) (c : Fin 2048) :
    arrayA A B (ix3 n r c) = resultA A B n r c := rfl

theorem arrayB_ix3 (A B : (⟨3, ![32, 512, 512]⟩ : Shape).Idx → EReal) (n : Fin 32) (r : Fin 512) (c : Fin 2048) :
    arrayB A B (ix3 n r c) = resultB A B n r c := rfl

end Cert.CoAttention

end
-- ==== Proof.BlockOps.lean ====
/-
  The vector operations of the attention body, each read at one entry.

  Everything is stated over explicit coordinates (`i j d : Fin 512`): a matrix product into a zero accumulator is the sum
  of products over the shared axis; a maximum or a sum along one axis of a 512 × 512 matrix is the fold, resp. the sum, over
  that axis's coordinates; a vector of per-row (per-column) values made a column (a row) and spread over the matrix reads
  the row's (column's) value; and the four slabs `x, t, x - t, x * t` laid side by side, with a unit axis in front, read
  slab `c / 512` at feature `c % 512`.
-/
import proofs.«116930_j74878459838619_1_alg».proof.Proof.Gen.KernelIdeal
import proofs.«116930_j74878459838619_1_alg».proof.Proof.CoAttention
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockOps

open Cert.KernelIdeal Cert.CoAttention
open Idealize.ShloMosaic Idealize.ShloMosaic.ValueIdx

/-! ## The matrix product -/

abbrev D := dot_S512x512_S512x512_S512x512_1_0_0_1_n_n

theorem lhs_D_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_D_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_D_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_D_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Entry `(i, j)` of a product into the zero accumulator: `∑ k, l i k * r k j`. -/
theorem matmul_zero_apply {φ₁ φ₂ : FTy} (l : FVec Ideal S512x512 φ₁) (r : FVec Ideal S512x512 φ₂) (i j : Fin 512) :
    matmul dot_S512x512_S512x512_S512x512_1_0_0_1_n_n none l r (constant S512x512 .f32 0x00000000#32) (ix2 i j)
      = ∑ k : Fin 512, l (ix2 i k) * r (ix2 k j) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 i j) ((ValueIdx.contrEquiv1 dot_S512x512_S512x512_S512x512_1_0_0_1_n_n 512 rfl rfl).symm k) = ix2 i k := funext fun a => Fin.ext (by
    match a with
    | ⟨0, _⟩ => exact lhs_D_0 _ _
    | ⟨1, _⟩ => exact (lhs_D_1 _ _).trans hk)
  have er : dot_S512x512_S512x512_S512x512_1_0_0_1_n_n.rhsIdx (ix2 i j) ((ValueIdx.contrEquiv1 dot_S512x512_S512x512_S512x512_1_0_0_1_n_n 512 rfl rfl).symm k) = ix2 k j := funext fun a => Fin.ext (by
    match a with
    | ⟨0, _⟩ => exact (rhs_D_0 _ _).trans hk
    | ⟨1, _⟩ => exact rhs_D_1 _ _)
  rw [el, er]

/-! ## Maxima and sums along one axis of a 512 × 512 matrix -/

/-- The largest entry of row `i`, from −∞. -/
theorem rowMax_apply (h : S512x512.Reduces [1] S512) (X : FVec Ideal S512x512 .f32) (hφ : FKind.Formats .f32)
    (hacc : (0xFF800000#32 : BitVec 32) = FKind.maximumf.neutral .f32 hφ) (i : Fin 512) :
    multiReduction .maximumf [1] S512 X 0xFF800000#32 h hφ hacc (ix1 i)
      = (Finset.univ : Finset (Fin 512)).fold max negInf fun j => X (ix2 i j) := by
  refine (Ideal.multiReduction_maximumf_single X _ h hφ hacc (ix1 i)).trans ?_
  show (Finset.univ : Finset (Fin 512)).fold max negInf (fun k => X (h.lift (ix1 i) k)) = _
  refine Finset.fold_congr fun k _ => congrArg X ?_
  exact funext fun a => Fin.ext (by match a with | ⟨0, _⟩ => rfl | ⟨1, _⟩ => rfl)

/-- The sum of row `i`. -/
theorem rowSum_apply (h : S512x512.Reduces [1] S512) (X : FVec Ideal S512x512 .f32) (hφ : FKind.Formats .f32)
    (hacc : (0x00000000#32 : BitVec 32) = FKind.add.neutral .f32 hφ) (i : Fin 512) :
    multiReduction .add [1] S512 X 0x00000000#32 h hφ hacc (ix1 i) = ∑ j : Fin 512, X (ix2 i j) := by
  refine (Ideal.multiReduction_add_single X _ h hφ hacc (ix1 i)).trans ?_
  show ∑ k : Fin 512, X (h.lift (ix1 i) k) = _
  refine Finset.sum_congr rfl fun k _ => congrArg X ?_
  exact funext fun a => Fin.ext (by match a with | ⟨0, _⟩ => rfl | ⟨1, _⟩ => rfl)

/-- The largest entry of column `j`, from −∞. -/
theorem colMax_apply (h : S512x512.Reduces [0] S512) (X : FVec Ideal S512x512 .f32) (hφ : FKind.Formats .f32)
    (hacc : (0xFF800000#32 : BitVec 32) = FKind.maximumf.neutral .f32 hφ) (j : Fin 512) :
    multiReduction .maximumf [0] S512 X 0xFF800000#32 h hφ hacc (ix1 j)
      = (Finset.univ : Finset (Fin 512)).fold max negInf fun i => X (ix2 i j) := by
  refine (Ideal.multiReduction_maximumf_single X _ h hφ hacc (ix1 j)).trans ?_
  show (Finset.univ : Finset (Fin 512)).fold max negInf (fun k => X (h.lift (ix1 j) k)) = _
  refine Finset.fold_congr fun k _ => congrArg X ?_
  exact funext fun a => Fin.ext (by match a with | ⟨0, _⟩ => rfl | ⟨1, _⟩ => rfl)

/-- The sum of column `j`. -/
theorem colSum_apply (h : S512x512.Reduces [0] S512) (X : FVec Ideal S512x512 .f32) (hφ : FKind.Formats .f32)
    (hacc : (0x00000000#32 : BitVec 32) = FKind.add.neutral .f32 hφ) (j : Fin 512) :
    multiReduction .add [0] S512 X 0x00000000#32 h hφ hacc (ix1 j) = ∑ i : Fin 512, X (ix2 i j) := by
  refine (Ideal.multiReduction_add_single X _ h hφ hacc (ix1 j)).trans ?_
  show ∑ k : Fin 512, X (h.lift (ix1 j) k) = _
  refine Finset.sum_congr rfl fun k _ => congrArg X ?_
  exact funext fun a => Fin.ext (by match a with | ⟨0, _⟩ => rfl | ⟨1, _⟩ => rfl)

/-! ## Per-row and per-column values spread over the matrix -/

/-- A vector made a column: entry `(i, 0)` is entry `i`. -/
theorem toColumn_apply {α : Type} (x : S512.Idx → α) (h : S512.ShapeCasts S512x1) (i : Fin 512) (u : Fin 1) :
    shapeCast S512x1 x h (ix2 i u) = x (ix1 i) :=
  shapeCast_apply x h _ _ (by
    have hu : u.val = 0 := by omega
    rw [Shape.rowMajor_val_one, Shape.rowMajor_val_two]
    show i.val = i.val * 1 + u.val
    omega)

/-- A column spread over the columns: entry `(i, j)` is the column's entry `i`. -/
theorem spreadColumn_apply {α : Type} (v : S512x1.Idx → α) (h : S512x1.Broadcasts S512x512) (i j : Fin 512) :
    broadcastTo S512x512 v h (ix2 i j) = v (ix2 i (0 : Fin 1)) := by
  refine broadcastTo_apply v h (ix2 i j) (ix2 i (0 : Fin 1)) fun ax => ?_
  match ax with
  | ⟨0, _⟩ => show i.val = if (512 : Nat) = 1 then 0 else i.val; rw [if_neg (by decide)]
  | ⟨1, _⟩ => show (0 : Nat) = if (1 : Nat) = 1 then 0 else j.val; rw [if_pos rfl]

/-- Per-row values spread over the matrix: entry `(i, j)` is row `i`'s value. -/
theorem perRow_apply {α : Type} (x : S512.Idx → α) (hc : S512.ShapeCasts S512x1) (hb : S512x1.Broadcasts S512x512) (i j : Fin 512) :
    broadcastTo S512x512 (shapeCast S512x1 x hc) hb (ix2 i j) = x (ix1 i) :=
  (spreadColumn_apply _ _ i j).trans (toColumn_apply x _ i 0)

/-- Per-column values spread over the matrix: entry `(i, j)` is column `j`'s value. -/
theorem perCol_apply {α : Type} (x : S512.Idx → α) (hc : S512.ShapeCasts S1x512) (hb : S1x512.Broadcasts S512x512) (i j : Fin 512) :
    broadcastTo S512x512 (shapeCast S1x512 x hc) hb (ix2 i j) = x (ix1 j) :=
  (broadcastTo_1b_ab_apply _ _ i j).trans (shapeCast_a_1a_apply x _ 0 j)

/-! ## The four slabs side by side -/

/-- The slabs of an output row as vectors. -/
abbrev quadV (x t : FVec Ideal S512x512 .f32) : Fin 4 → FVec Ideal S512x512 .f32 := fun n => match n with
  | ⟨0, _⟩ => x
  | ⟨1, _⟩ => t
  | ⟨2, _⟩ => subf x t
  | ⟨3, _⟩ => mulf x t

/-- Entry `(0, r, c)` of the feature block built from `x` and `t`. -/
theorem featureBlock_apply (x t : FVec Ideal S512x512 .f32)
    (hcat : Shape.Concatenates [S512x512, S512x512, S512x512, S512x512] S512x2048 1) (hc : S512x2048.ShapeCasts S1x512x2048)
    (u : Fin 1) (r : Fin 512) (c : Fin 2048) :
    shapeCast S1x512x2048 (concatenate S512x2048 1 [⟨S512x512, x⟩, ⟨S512x512, t⟩, ⟨S512x512, subf x t⟩, ⟨S512x512, mulf x t⟩]
        hcat) hc (ix3 u r c)
      = features (fun i d => x (ix2 i d)) (fun i d => t (ix2 i d)) r c := by
  refine (shapeCast_ab_1ab_apply _ _ u r c).trans ?_
  show concatenate S512x2048 1 (List.ofFn fun n : Fin 4 => (⟨S512x512, quadV x t n⟩ : (s : Shape) × (s.Idx → _))) _ (ix2 r c) = _
  refine (concatenate_ofFn_apply (t := S512x2048) (s₁ := S512x512) (1 : Fin 2) (quadV x t) _ rfl 512 rfl (ix2 r c)
    ⟨c.val / 512, by have := c.isLt; omega⟩ rfl (ix2 r ⟨c.val % 512, Nat.mod_lt _ (by decide)⟩) rfl
    (fun b hb => by match b with | ⟨0, _⟩ => rfl | ⟨1, _⟩ => exact absurd rfl hb)).trans ?_
  unfold features
  generalize (⟨c.val / 512, _⟩ : Fin 4) = q
  match q with
  | ⟨0, _⟩ => rfl
  | ⟨1, _⟩ => rfl
  | ⟨2, _⟩ => rfl
  | ⟨3, _⟩ => rfl

end Cert.KernelIdeal.BlockOps

end
-- ==== Proof.AttentionBody.lean ====
/-
  The attention body on one pair of loaded blocks.

  `P0` and `P1` are the blocks of the two inputs the body loads (one batch element each, with a leading unit axis).
  The body computes the score matrix `P0 · P1ᵀ`; shifts, exponentiates and normalises it along rows and, separately, along
  columns; multiplies the row weights by `P1` and the transposed column weights by `P0`; and stores, for each input, the
  four slabs `x, t, x - t, x * t`. Read at one entry, the two stored blocks are the specification's `features` of the
  blocks' matrices and their attended matrices. The narrowing to bf16 before each product is the identity on the
  extended reals, and a product into the zero accumulator is the plain sum of products.
-/
import proofs.«116930_j74878459838619_1_alg».proof.Proof.Gen.KernelIdeal.Skeleton
import proofs.«116930_j74878459838619_1_alg».proof.Proof.BlockOps

noncomputable section

namespace Cert.KernelIdeal.Body

open Cert.KernelIdeal Cert.KernelIdeal.Gen Cert.CoAttention Cert.KernelIdeal.BlockOps
open Idealize.ShloMosaic Idealize.ShloMosaic.ValueIdx

variable (P0 P1 : Vec Ideal S1x512x512 .f32)

/-- A loaded block as a matrix: its one batch element. -/
abbrev matOf (P : Vec Ideal S1x512x512 .f32) : Mat := fun i d => P (ix3 (0 : Fin 1) i d)

/-! ## The loaded blocks as matrices -/

theorem pay2_apply (i d : Fin 512) : k0_pay2 P0 (ix2 i d) = matOf P0 i d :=
  shapeCast_1ab_ab_apply P0 _ i d

theorem pay3_apply (i d : Fin 512) : k0_pay3 P1 (ix2 i d) = matOf P1 i d :=
  shapeCast_1ab_ab_apply P1 _ i d

theorem pay4_apply (i d : Fin 512) : k0_pay4 P0 (ix2 i d) = matOf P0 i d := pay2_apply P0 i d

theorem pay5_apply (i d : Fin 512) : k0_pay5 P1 (ix2 i d) = matOf P1 i d := pay3_apply P1 i d

/-! ## The scores -/

theorem score_apply (i j : Fin 512) : k0_pay6 P0 P1 (ix2 i j) = score (matOf P0) (matOf P1) i j := by
  unfold k0_pay6 score
  refine (matmul_zero_apply _ _ i j).trans (Finset.sum_congr rfl fun k _ => ?_)
  rw [pay4_apply, transpose_ix2_apply, pay5_apply]

/-! ## Along the rows: the first result's attended matrix -/

/-- Each row's shift: its largest score, from −∞ and once more against −∞. -/
def rowShift : FVec Ideal S512 .f32 :=
  maximumf (broadcast S512 (Scalar.ofBits .f32 0xFF800000#32))
    (multiReduction .maximumf [1] S512 (k0_pay6 P0 P1) 0xFF800000#32 Gen.reduces_S512x512_S512 (.inl rfl) rfl)

/-- The shifted exponentials, row by row. -/
def rowExpV : FVec Ideal S512x512 .f32 :=
  exp (subf (k0_pay6 P0 P1) (broadcastTo S512x512 (shapeCast S512x1 (rowShift P0 P1) Gen.shapeCasts_S512_S512x1) Gen.broadcasts_S512x1_S512x512))

/-- The row softmax weights. -/
def rowWeightV : FVec Ideal S512x512 .f32 :=
  divf (rowExpV P0 P1) (broadcastTo S512x512 (shapeCast S512x1
    (multiReduction .add [1] S512 (rowExpV P0 P1) 0x00000000#32 Gen.reduces_S512x512_S512 (.inl rfl) rfl) Gen.shapeCasts_S512_S512x1) Gen.broadcasts_S512x1_S512x512)

/-- The row weights times the second block. -/
def attendedAV : FVec Ideal S512x512 .f32 :=
  matmul dot_S512x512_S512x512_S512x512_1_0_0_1_n_n none (truncf .bf16 (rowWeightV P0 P1) Gen.bitsLt_bf16_f32) (k0_pay5 P1) (constant S512x512 .f32 0x00000000#32)

theorem rowShift_apply (i : Fin 512) : rowShift P0 P1 (ix1 i) = rowMax (matOf P0) (matOf P1) i := by
  unfold rowShift rowMax
  refine congrArg (max negInf) ((rowMax_apply _ _ _ _ i).trans ?_)
  exact Finset.fold_congr fun j _ => score_apply P0 P1 i j

theorem rowExpV_apply (i j : Fin 512) : rowExpV P0 P1 (ix2 i j) = rowExp (matOf P0) (matOf P1) i j := by
  unfold rowExpV rowExp
  refine congrArg Ideal.exp ?_
  refine congrArg₂ (· - ·) (score_apply P0 P1 i j) ?_
  exact (perRow_apply _ _ _ i j).trans (rowShift_apply P0 P1 i)

theorem rowWeightV_apply (i j : Fin 512) : rowWeightV P0 P1 (ix2 i j) = rowWeight (matOf P0) (matOf P1) i j := by
  unfold rowWeightV rowWeight
  refine congrArg₂ Ideal.div (rowExpV_apply P0 P1 i j) ?_
  refine (perRow_apply _ _ _ i j).trans ((rowSum_apply _ _ _ _ i).trans ?_)
  exact Finset.sum_congr rfl fun j' _ => rowExpV_apply P0 P1 i j'

theorem attendedAV_apply (i d : Fin 512) : attendedAV P0 P1 (ix2 i d) = attendedA (matOf P0) (matOf P1) i d := by
  unfold attendedAV attendedA
  refine (matmul_zero_apply _ _ i d).trans (Finset.sum_congr rfl fun k _ => ?_)
  exact congrArg₂ (· * ·) (rowWeightV_apply P0 P1 i k) (pay5_apply P1 k d)

/-- The first stored block is the four slabs of the first block's matrix and its attended matrix. -/
theorem pay8_eq : k0_pay8 P0 P1 = shapeCast S1x512x2048 (concatenate S512x2048 1
      [⟨S512x512, k0_pay2 P0⟩, ⟨S512x512, attendedAV P0 P1⟩, ⟨S512x512, subf (k0_pay2 P0) (attendedAV P0 P1)⟩,
        ⟨S512x512, mulf (k0_pay2 P0) (attendedAV P0 P1)⟩] Gen.concatenates_S512x512_S512x512_S512x512_S512x512_S512x2048_d1)
      Gen.shapeCasts_S512x2048_S1x512x2048 := rfl

theorem pay8_apply (u : Fin 1) (r : Fin 512) (c : Fin 2048) :
    k0_pay8 P0 P1 (ix3 u r c) = features (matOf P0) (attendedA (matOf P0) (matOf P1)) r c := by
  rw [pay8_eq]
  refine (featureBlock_apply _ _ _ _ u r c).trans ?_
  have e1 : (fun i d => k0_pay2 P0 (ix2 i d)) = matOf P0 := funext fun i => funext fun d => pay2_apply P0 i d
  have e2 : (fun i d => attendedAV P0 P1 (ix2 i d)) = attendedA (matOf P0) (matOf P1) :=
    funext fun i => funext fun d => attendedAV_apply P0 P1 i d
  rw [e1, e2]

/-! ## Along the columns: the second result's attended matrix -/

/-- Each column's shift: its largest score, from −∞ and once more against −∞. -/
def colShift : FVec Ideal S512 .f32 :=
  maximumf (broadcast S512 (Scalar.ofBits .f32 0xFF800000#32))
    (multiReduction .maximumf [0] S512 (k0_pay6 P0 P1) 0xFF800000#32 Gen.reduces_S512x512_S512_2 (.inl rfl) rfl)

/-- The shifted exponentials, column by column. -/
def colExpV : FVec Ideal S512x512 .f32 :=
  exp (subf (k0_pay6 P0 P1) (broadcastTo S512x512 (shapeCast S1x512 (colShift P0 P1) Gen.shapeCasts_S512_S1x512) Gen.broadcasts_S1x512_S512x512))

/-- The column softmax weights. -/
def colWeightV : FVec Ideal S512x512 .f32 :=
  divf (colExpV P0 P1) (broadcastTo S512x512 (shapeCast S1x512
    (multiReduction .add [0] S512 (colExpV P0 P1) 0x00000000#32 Gen.reduces_S512x512_S512_2 (.inl rfl) rfl) Gen.shapeCasts_S512_S1x512) Gen.broadcasts_S1x512_S512x512)

theorem colShift_apply (j : Fin 512) : colShift P0 P1 (ix1 j) = colMax (matOf P0) (matOf P1) j := by
  unfold colShift colMax
  refine congrArg (max negInf) ((colMax_apply _ _ _ _ j).trans ?_)
  exact Finset.fold_congr fun i _ => score_apply P0 P1 i j

theorem colExpV_apply (i j : Fin 512) : colExpV P0 P1 (ix2 i j) = colExp (matOf P0) (matOf P1) i j := by
  unfold colExpV colExp
  refine congrArg Ideal.exp ?_
  refine congrArg₂ (· - ·) (score_apply P0 P1 i j) ?_
  exact (perCol_apply _ _ _ i j).trans (colShift_apply P0 P1 j)

theorem colWeightV_apply (i j : Fin 512) : colWeightV P0 P1 (ix2 i j) = colWeight (matOf P0) (matOf P1) i j := by
  unfold colWeightV colWeight
  refine congrArg₂ Ideal.div (colExpV_apply P0 P1 i j) ?_
  refine (perCol_apply _ _ _ i j).trans ((colSum_apply _ _ _ _ j).trans ?_)
  exact Finset.sum_congr rfl fun i' _ => colExpV_apply P0 P1 i' j

/-- The transposed column weights times the first block. -/
theorem pay7_eq : k0_pay7 P0 P1 = matmul dot_S512x512_S512x512_S512x512_1_0_0_1_n_n none
      (transpose S512x512 [1, 0] (truncf .bf16 (colWeightV P0 P1) Gen.bitsLt_bf16_f32) Gen.transposes_S512x512_p1_0_S512x512)
      (k0_pay4 P0) (constant S512x512 .f32 0x00000000#32) := rfl

theorem pay7_apply (j d : Fin 512) : k0_pay7 P0 P1 (ix2 j d) = attendedB (matOf P0) (matOf P1) j d := by
  rw [pay7_eq]
  unfold attendedB
  refine (matmul_zero_apply _ _ j d).trans (Finset.sum_congr rfl fun k _ => ?_)
  refine congrArg₂ (· * ·) ?_ (pay4_apply P0 k d)
  exact (transpose_ix2_apply _ _ j k).trans (colWeightV_apply P0 P1 k j)

/-- The second stored block is the four slabs of a matrix `x` and a matrix `t`. -/
theorem pay1_eq (x t : FVec Ideal S512x512 .f32) : k0_pay1 x t = shapeCast S1x512x2048 (concatenate S512x2048 1
      [⟨S512x512, x⟩, ⟨S512x512, t⟩, ⟨S512x512, subf x t⟩, ⟨S512x512, mulf x t⟩]
      Gen.concatenates_S512x512_S512x512_S512x512_S512x512_S512x2048_d1) Gen.shapeCasts_S512x2048_S1x512x2048 := rfl

theorem pay1_apply (u : Fin 1) (r : Fin 512) (c : Fin 2048) :
    k0_pay1 (k0_pay3 P1) (k0_pay7 P0 P1) (ix3 u r c) = features (matOf P1) (attendedB (matOf P0) (matOf P1)) r c := by
  rw [pay1_eq]
  refine (featureBlock_apply _ _ _ _ u r c).trans ?_
  have e1 : (fun i d => k0_pay3 P1 (ix2 i d)) = matOf P1 := funext fun i => funext fun d => pay3_apply P1 i d
  have e2 : (fun i d => k0_pay7 P0 P1 (ix2 i d)) = attendedB (matOf P0) (matOf P1) :=
    funext fun i => funext fun d => pay7_apply P0 P1 i d
  rw [e1, e2]

end Cert.KernelIdeal.Body

end
-- ==== Proof.ResultArrays.lean ====
/-
  From blocks to arrays: what the kernel's two result arrays hold after the run.

  The grid has one point per batch element. At point `t` each input window's block is batch `t` of its array, and the
  body's two stored blocks are, entry by entry, the specification's features of that batch (the body module). Each output
  window writes its block back at batch `t`; the 32 blocks tile the output array. So after the run the first result array
  is `arrayA` of the two argument arrays and the second is `arrayB`.
-/
import proofs.«116930_j74878459838619_1_alg».proof.Proof.Gen.KernelIdeal.Value
import proofs.«116930_j74878459838619_1_alg».proof.Proof.AttentionBody

set_option maxRecDepth 16384

noncomputable section

namespace Cert.KernelIdeal.Arrays

open Cert.KernelIdeal Cert.KernelIdeal.Gen Cert.KernelIdeal.Value Cert.CoAttention Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at point `t` is `(t, 0, 0)`: decided over the 32 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- A grid point as a batch number. -/
abbrev batch (t : Fin cfg0.N) : Fin 32 := ⟨t.val, lt_of_lt_of_eq t.isLt N_0⟩

/-! ## The input blocks are batch `t` of the arguments -/

theorem matOf_iblk0 (c : Dev nD) (t : Fin cfg0.N) : matOf (iblk m c 0 t) = slab (V m c main_arg0) (batch t) := by
  funext i d
  show V m c main_arg0 (((cfg0.win 0).blk t).view.emb (ix3 (0 : Fin 1) i d)) = V m c main_arg0 (ix3 (batch t) i d)
  refine congrArg (V m c main_arg0) (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 512 + 1 * d.val = d.val; omega

theorem matOf_iblk1 (c : Dev nD) (t : Fin cfg0.N) : matOf (iblk m c 1 t) = slab (V m c main_arg1) (batch t) := by
  funext i d
  show V m c main_arg1 (((cfg0.win 1).blk t).view.emb (ix3 (0 : Fin 1) i d)) = V m c main_arg1 (ix3 (batch t) i d)
  refine congrArg (V m c main_arg1) (funext fun a => Fin.ext ?_)
  obtain ⟨-, -, -, e0, e1, e2, -⟩ := idx_facts t
  match a with
  | ⟨0, _⟩ => show win0_1.index t (0 : Fin 3) * 1 + 1 * 0 = t.val; omega
  | ⟨1, _⟩ => show win0_1.index t (1 : Fin 3) * 512 + 1 * i.val = i.val; omega
  | ⟨2, _⟩ => show win0_1.index t (2 : Fin 3) * 512 + 1 * d.val = d.val; omega

/-! ## The stored blocks, by coordinates of a block index -/

theorem stored2 (X0 X1 : Vec Ideal S1x512x512 .f32) (y : S1x512x2048.Idx) :
    k0_pay8 X0 X1 y = features (matOf X0) (attendedA (matOf X0) (matOf X1)) ⟨(y 1).val, (y 1).isLt⟩ ⟨(y 2).val, (y 2).isLt⟩ := by
  obtain ⟨u, r, cc, rfl⟩ : ∃ (u : Fin 1) (r : Fin 512) (cc : Fin 2048), y = ix3 u r cc := ⟨y 0, y 1, y 2, eq_ix3 y⟩
  exact pay8_apply X0 X1 u r cc

theorem stored3 (X0 X1 : Vec Ideal S1x512x512 .f32) (y : S1x512x2048.Idx) :
    k0_pay1 (k0_pay3 X1) (k0_pay7 X0 X1) y = features (matOf X1) (attendedB (matOf X0) (matOf X1)) ⟨(y 1).val, (y 1).isLt⟩ ⟨(y 2).val, (y 2).isLt⟩ := by
  obtain ⟨u, r, cc, rfl⟩ : ∃ (u : Fin 1) (r : Fin 512) (cc : Fin 2048), y = ix3 u r cc := ⟨y 0, y 1, y 2, eq_ix3 y⟩
  exact pay1_apply X0 X1 u r cc

/-! ## What each point writes back -/

/-- Point `t` writes batch `t` of `arrayA` to the first result. -/
theorem flushedA_eq (c : Dev nD) (t : Fin cfg0.N) :
    (dats m 0 c).flushed 2 t
      = ((cfg0.win 2).blk t).view.read (Elt Ideal) (arrayA (V m c main_arg0) (V m c main_arg1)) := by
  rw [Value.flushed2]
  unfold out0_2
  rw [View.canon_unit_zero hz]
  simp only [View.ld_unit_zero (S := S1x512x512) hz]
  refine funext fun (y : S1x512x2048.Idx) => ?_
  show k0_pay8 (iblk m c 0 t) (iblk m c 1 t) y
    = arrayA (V m c main_arg0) (V m c main_arg1) (((cfg0.win 2).blk t).view.emb y)
  have hy0 : (y 0).val < 1 := (y 0).isLt
  have hemb : ((cfg0.win 2).blk t).view.emb y = ix3 (batch t) (⟨(y 1).val, (y 1).isLt⟩ : Fin 512) (⟨(y 2).val, (y 2).isLt⟩ : Fin 2048) := by
    obtain ⟨-, -, -, -, -, -, e0, e1, e2, -⟩ := idx_facts t
    funext a; apply Fin.ext
    match a with
    | ⟨0, _⟩ => show win0_2.index t (0 : Fin 3) * 1 + 1 * (y 0).val = t.val; omega
    | ⟨1, _⟩ => show win0_2.index t (1 : Fin 3) * 512 + 1 * (y 1).val = (y 1).val; omega
    | ⟨2, _⟩ => show win0_2.index t (2 : Fin 3) * 2048 + 1 * (y 2).val = (y 2).val; omega
  rw [hemb, arrayA_ix3, stored2, matOf_iblk0, matOf_iblk1]
  rfl

/-- Point `t` writes batch `t` of `arrayB` to the second result. -/
theorem flushedB_eq (c : Dev nD) (t : Fin cfg0.N) :
    (dats m 0 c).flushed 3 t
      = ((cfg0.win 3).blk t).view.read (Elt Ideal) (arrayB (V m c main_arg0) (V m c main_arg1)) := by
  rw [Value.flushed3]
  unfold out0_3
  rw [View.canon_unit_zero hz]
  simp only [View.ld_unit_zero (S := S1x512x512) hz]
  refine funext fun (y : S1x512x2048.Idx) => ?_
  show k0_pay1 (k0_pay3 (iblk m c 1 t)) (k0_pay7 (iblk m c 0 t) (iblk m c 1 t)) y
    = arrayB (V m c main_arg0) (V m c main_arg1) (((cfg0.win 3).blk t).view.emb y)
  have hy0 : (y 0).val < 1 := (y 0).isLt
  have hemb : ((cfg0.win 3).blk t).view.emb y = ix3 (batch t) (⟨(y 1).val, (y 1).isLt⟩ : Fin 512) (⟨(y 2).val, (y 2).isLt⟩ : Fin 2048) := by
    obtain ⟨-, -, -, -, -, -, -, -, -, e0, e1, e2⟩ := idx_facts t
    funext a; apply Fin.ext
    match a with
    | ⟨0, _⟩ => show win0_3.index t (0 : Fin 3) * 1 + 1 * (y 0).val = t.val; omega
    | ⟨1, _⟩ => show win0_3.index t (1 : Fin 3) * 512 + 1 * (y 1).val = (y 1).val; omega
    | ⟨2, _⟩ => show win0_3.index t (2 : Fin 3) * 2048 + 1 * (y 2).val = (y 2).val; omega
  rw [hemb, arrayB_ix3, stored3, matOf_iblk0, matOf_iblk1]
  rfl

/-! ## The blocks tile the result arrays -/

/-- An index is in point `t`'s block of the first result iff each coordinate is in the block's range. -/
theorem mem_blkA (t : Fin cfg0.N) (i : S32x512x2048.Idx) :
    i ∈ ((cfg0.win 2).blk t).view.set ↔ ∀ a : Fin 3, win0_2.index t a * S1x512x2048.size a ≤ (i a).val ∧ (i a).val < win0_2.index t a * S1x512x2048.size a + S1x512x2048.size a := by
  show i ∈ ((View.whole main_v0_0).slice (win0_2.rect t)).set ↔ _
  rw [View.set_slice_whole, Rect.mem_set_unit]
  exact Iff.rfl

theorem mem_blkB (t : Fin cfg0.N) (i : S32x512x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v0_1).slice (win0_3.rect t)).set ↔ _
  rw [View.set_slice_whole, Rect.mem_set_unit]
  exact Iff.rfl

/-- Index `i` lies in the block of the point numbered by its batch coordinate. -/
theorem coverA (i : S32x512x2048.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 2048 := (i 2).isLt
  refine ⟨⟨(i 0).val, lt_of_lt_of_eq hi0 N_0.symm⟩, flush0_2 _, ?_⟩
  rw [mem_blkA]
  obtain ⟨-, -, -, -, -, -, e0, e1, e2, -⟩ := idx_facts ⟨(i 0).val, lt_of_lt_of_eq hi0 N_0.symm⟩
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 512 ≤ (i 1).val ∧ (i 1).val < win0_2.index _ (1 : Fin 3) * 512 + 512; rw [e1]; omega
  | ⟨2, _⟩ => show win0_2.index _ (2 : Fin 3) * 2048 ≤ (i 2).val ∧ (i 2).val < win0_2.index _ (2 : Fin 3) * 2048 + 2048; rw [e2]; omega

theorem coverB (i : S32x512x2048.Idx) :
    ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 2048 := (i 2).isLt
  refine ⟨⟨(i 0).val, lt_of_lt_of_eq hi0 N_0.symm⟩, flush0_3 _, ?_⟩
  rw [mem_blkB]
  obtain ⟨-, -, -, -, -, -, -, -, -, e0, e1, e2⟩ := idx_facts ⟨(i 0).val, lt_of_lt_of_eq hi0 N_0.symm⟩
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 512 ≤ (i 1).val ∧ (i 1).val < win0_3.index _ (1 : Fin 3) * 512 + 512; rw [e1]; omega
  | ⟨2, _⟩ => show win0_3.index _ (2 : Fin 3) * 2048 ≤ (i 2).val ∧ (i 2).val < win0_3.index _ (2 : Fin 3) * 2048 + 2048; rw [e2]; omega

/-! ## The arrays after the run, and the run -/

theorem finalA (c : Dev nD) :
    (dats m 0 c).arrAt 2 cfg0.N = arrayA (m ((c : Thread nD τ).loc main_arg0)) (m ((c : Thread nD τ).loc main_arg1)) :=
  (dats m 0 c).arrAt_eq_of_cover 2 (arrayA (V m c main_arg0) (V m c main_arg1)) (fun t _ => flushedA_eq m c t) coverA

theorem finalB (c : Dev nD) :
    (dats m 0 c).arrAt 3 cfg0.N = arrayB (m ((c : Thread nD τ).loc main_arg0)) (m ((c : Thread nD τ).loc main_arg1)) :=
  (dats m 0 c).arrAt_eq_of_cover 3 (arrayB (V m c main_arg0) (V m c main_arg1)) (fun t _ => flushedB_eq m c t) coverB

/-- Every weakly fair execution of the idealized kernel terminates with the two results at `arrayA` and `arrayB` of
    the arguments, the arguments unchanged. -/
theorem run : θ_run defs (onTc (τ := τ) (main (F := Ideal))) ⟨m, fun _ => 0, ρ⟩ fun r => ∀ c : Dev nD,
      r.2.mem ((c : Thread nD τ).loc main_v0_0) = arrayA (m ((c : Thread nD τ).loc main_arg0)) (m ((c : Thread nD τ).loc main_arg1))
      ∧ r.2.mem ((c : Thread nD τ).loc main_v0_1) = arrayB (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalA m c), (h c).2.1.trans (finalB m c), (h c).2.2⟩)
    (Value.run_blocks m ρ)

end Cert.KernelIdeal.Arrays

end
-- ==== Proof.ReferenceResults.lean ====
/-
  The reference's two results, read off its run.

  The reference is a straight line of 37 host operations. Its first 31 compute the scores, the two softmaxes and the two
  attended matrices; none of them is a concatenation. The last six are the difference and the product of each argument
  with its attended matrix and the two four-way concatenations. After the first 31 the arguments are as launched and the
  two attended matrices are the stages `val_main_v12` and `val_main_v24` of the arguments; from ANY contents the last six
  leave each result as the concatenation `[x, t, x - t, x * t]` of an argument `x` and its attended matrix `t` found
  there. Put together, the results after the whole line are the stages `val_main_v27` and `val_main_v30`.
-/
import proofs.«116930_j74878459838619_1_alg».proof.Proof.ReferenceStages
import Idealize.ShloMosaic.Lib.Pipeline.Frame

noncomputable section

namespace Cert.ReferenceIdeal.Results

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first 31 operations: through the second attended matrix. -/
abbrev opsHead : List (HloOp τ sig (Elt F)) := (ops (F := F)).take 31

/-- The last six: the differences, the products and the two concatenations. -/
abbrev opsTail : List (HloOp τ sig (Elt F)) := (ops (F := F)).drop 31

/-- The whole line is the two stretches, one after the other. -/
theorem after_ops (V : Valuation τ sig (Elt F)) : after ops V = after opsTail (after opsHead V) := by
  rw [← StableHlo.after_append, List.take_append_drop]

/-- The four slabs `x, t, x - t, x * t` joined along the feature axis. -/
def join (x t : (⟨S32x512x512, .f32⟩ : BufTy).Contents (Elt F)) : (⟨S32x512x2048, .f32⟩ : BufTy).Contents (Elt F) :=
  concatenate S32x512x2048 2 [⟨S32x512x512, x⟩, ⟨S32x512x512, t⟩, ⟨S32x512x512, subf x t⟩, ⟨S32x512x512, mulf x t⟩]
    concatenates_S32x512x512_S32x512x512_S32x512x512_S32x512x512_S32x512x2048_d2

/-! ## After the first stretch -/

theorem head_arg0 (V : Valuation τ sig (Elt F)) :
    after opsHead V (Proc.devRef .tc main_arg0) = V (Proc.devRef .tc main_arg0) := by
  simp only [opsHead, ops, List.take_succ_cons, List.take_zero]
  after_results_simp <;> rfl

theorem head_arg1 (V : Valuation τ sig (Elt F)) :
    after opsHead V (Proc.devRef .tc main_arg1) = V (Proc.devRef .tc main_arg1) := by
  simp only [opsHead, ops, List.take_succ_cons, List.take_zero]
  after_results_simp <;> rfl

set_option maxHeartbeats 2000000 in
theorem head_v12 (V : Valuation τ sig (Elt F)) :
    after opsHead V (Proc.devRef .tc main_v12)
      = val_main_v12 (F := F) (V (Proc.devRef .tc main_arg0)) (V (Proc.devRef .tc main_arg1)) := by
  simp only [opsHead, ops, List.take_succ_cons, List.take_zero]
  after_results_simp <;> rfl

set_option maxHeartbeats 2000000 in
theorem head_v24 (V : Valuation τ sig (Elt F)) :
    after opsHead V (Proc.devRef .tc main_v24)
      = val_main_v24 (F := F) (V (Proc.devRef .tc main_arg0)) (V (Proc.devRef .tc main_arg1)) := by
  simp only [opsHead, ops, List.take_succ_cons, List.take_zero]
  after_results_simp <;> rfl

/-! ## The last stretch, from any contents -/

theorem tail_v27 (W : Valuation τ sig (Elt F)) :
    after opsTail W (Proc.devRef .tc main_v27) = join (W (Proc.devRef .tc main_arg0)) (W (Proc.devRef .tc main_v12)) := by
  simp only [opsTail, ops, List.drop_succ_cons, List.drop_zero]
  after_results <;> rfl

theorem tail_v30 (W : Valuation τ sig (Elt F)) :
    after opsTail W (Proc.devRef .tc main_v30) = join (W (Proc.devRef .tc main_arg1)) (W (Proc.devRef .tc main_v24)) := by
  simp only [opsTail, ops, List.drop_succ_cons, List.drop_zero]
  after_results <;> rfl

theorem tail_arg0 (W : Valuation τ sig (Elt F)) :
    after opsTail W (Proc.devRef .tc main_arg0) = W (Proc.devRef .tc main_arg0) := by
  simp only [opsTail, ops, List.drop_succ_cons, List.drop_zero]
  after_results <;> rfl

theorem tail_arg1 (W : Valuation τ sig (Elt F)) :
    after opsTail W (Proc.devRef .tc main_arg1) = W (Proc.devRef .tc main_arg1) := by
  simp only [opsTail, ops, List.drop_succ_cons, List.drop_zero]
  after_results <;> rfl

/-! ## After the whole line -/

theorem result0 (V : Valuation τ sig (Elt F)) :
    after ops V (Proc.devRef .tc main_v27)
      = val_main_v27 (F := F) (V (Proc.devRef .tc main_arg0)) (V (Proc.devRef .tc main_arg1)) := by
  rw [after_ops, tail_v27, head_arg0, head_v12]
  rfl

theorem result1 (V : Valuation τ sig (Elt F)) :
    after ops V (Proc.devRef .tc main_v30)
      = val_main_v30 (F := F) (V (Proc.devRef .tc main_arg0)) (V (Proc.devRef .tc main_arg1)) := by
  rw [after_ops, tail_v30, head_arg1, head_v24]
  rfl

theorem kept0 (V : Valuation τ sig (Elt F)) : after ops V (Proc.devRef .tc main_arg0) = V (Proc.devRef .tc main_arg0) := by
  rw [after_ops, tail_arg0, head_arg0]

theorem kept1 (V : Valuation τ sig (Elt F)) : after ops V (Proc.devRef .tc main_arg1) = V (Proc.devRef .tc main_arg1) := by
  rw [after_ops, tail_arg1, head_arg1]

/-- Every weakly fair execution of the reference terminates with its two results at the stages `val_main_v27` and
    `val_main_v30` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = val_main_v27 (F := F) (m ((c.tc : Thread nD τ).loc main_arg0)) (m ((c.tc : Thread nD τ).loc main_arg1))
      ∧ r.2.mem ((c.tc : Thread nD τ).loc main_v30)
        = val_main_v30 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v27).trans (result0 _), (h c main_v30).trans (result1 _),
      (h c main_arg0).trans (kept0 _), (h c main_arg1).trans (kept1 _)⟩)
    (run_ops m ρ)

end Cert.ReferenceIdeal.Results

end
-- ==== Proof.ReferenceValue.lean ====
/-
  The reference's stages are the specification.

  Read at an entry, stage by stage: the first `dot_general` is the score; the maximum over an axis, taken from −∞ and
  once more against −∞, is the row's (the column's) maximum; the exponential of the shifted score, its sum from zero over
  the axis and the quotient are the softmax weight; the second (third) `dot_general` is the attended matrix; and the
  concatenation reads slab `c / 512` at feature `c % 512`. Only the host's zero start of each sum is removed
  (`0 + s = s`); nothing else is computed.
-/
import proofs.«116930_j74878459838619_1_alg».proof.Proof.ReferenceStages
import proofs.«116930_j74878459838619_1_alg».proof.Proof.CoAttention

noncomputable section

namespace Cert.ReferenceIdeal.RefValue

open Cert.ReferenceIdeal Cert.ReferenceIdeal.Gen Cert.ReferenceIdeal.ReadP Cert.CoAttention
open Idealize.ShloMosaic Idealize.ShloMosaic.ValueIdx

variable (A B : (⟨S32x512x512, .f32⟩ : BufTy).Contents (Elt Ideal))

/-! ## Where each stage reads its operands -/

theorem lidx_v0 (n : Fin 32) (i j k : Fin 512) : lidx_main_v0 (ix3 n i j) k = ix3 n i k :=
  funext fun a => Fin.ext (by match a with | ⟨0, _⟩ => rfl | ⟨1, _⟩ => rfl | ⟨2, _⟩ => rfl)
theorem ridx_v0 (n : Fin 32) (i j k : Fin 512) : ridx_main_v0 (ix3 n i j) k = ix3 n j k :=
  funext fun a => Fin.ext (by match a with | ⟨0, _⟩ => rfl | ⟨1, _⟩ => rfl | ⟨2, _⟩ => rfl)
theorem idx_v5 (n : Fin 32) (i j : Fin 512) : idx_main_v4 (idx_main_v5 (ix3 n i j)) = ix2 n i :=
  funext fun a => Fin.ext (by match a with | ⟨0, _⟩ => rfl | ⟨1, _⟩ => rfl)
theorem idx_v8 (n : Fin 32) (i k : Fin 512) : idx_main_v8 (ix2 n i) k = ix3 n i k :=
  funext fun a => Fin.ext (by match a with | ⟨0, _⟩ => rfl | ⟨1, _⟩ => rfl | ⟨2, _⟩ => rfl)
theorem idx_v10 (n : Fin 32) (i j : Fin 512) : idx_main_v9 (idx_main_v10 (ix3 n i j)) = ix2 n i :=
  funext fun a => Fin.ext (by match a with | ⟨0, _⟩ => rfl | ⟨1, _⟩ => rfl)
theorem lidx_v12 (n : Fin 32) (i d k : Fin 512) : lidx_main_v12 (ix3 n i d) k = ix3 n i k :=
  funext fun a => Fin.ext (by match a with | ⟨0, _⟩ => rfl | ⟨1, _⟩ => rfl | ⟨2, _⟩ => rfl)
theorem ridx_v12 (n : Fin 32) (i d k : Fin 512) : ridx_main_v12 (ix3 n i d) k = ix3 n k d :=
  funext fun a => Fin.ext (by match a with | ⟨0, _⟩ => rfl | ⟨1, _⟩ => rfl | ⟨2, _⟩ => rfl)
theorem idx_v17 (n : Fin 32) (i j : Fin 512) : idx_main_v16 (idx_main_v17 (ix3 n i j)) = ix2 n j :=
  funext fun a => Fin.ext (by match a with | ⟨0, _⟩ => rfl | ⟨1, _⟩ => rfl)
theorem idx_v20 (n : Fin 32) (j k : Fin 512) : idx_main_v20 (ix2 n j) k = ix3 n k j :=
  funext fun a => Fin.ext (by match a with | ⟨0, _⟩ => rfl | ⟨1, _⟩ => rfl | ⟨2, _⟩ => rfl)
theorem idx_v22 (n : Fin 32) (i j : Fin 512) : idx_main_v21 (idx_main_v22 (ix3 n i j)) = ix2 n j :=
  funext fun a => Fin.ext (by match a with | ⟨0, _⟩ => rfl | ⟨1, _⟩ => rfl)
theorem lidx_v24 (n : Fin 32) (j d k : Fin 512) : lidx_main_v24 (ix3 n j d) k = ix3 n k j :=
  funext fun a => Fin.ext (by match a with | ⟨0, _⟩ => rfl | ⟨1, _⟩ => rfl | ⟨2, _⟩ => rfl)
theorem ridx_v24 (n : Fin 32) (j d k : Fin 512) : ridx_main_v24 (ix3 n j d) k = ix3 n k d :=
  funext fun a => Fin.ext (by match a with | ⟨0, _⟩ => rfl | ⟨1, _⟩ => rfl | ⟨2, _⟩ => rfl)

theorem red_rows : S32x512x512.Reduces [2] S32x512 := by decide
theorem red_cols : S32x512x512.Reduces [1] S32x512 := by decide

/-! ## The scores -/

theorem score_eq (n : Fin 32) (i j : Fin 512) :
    val_main_v0 (F := Ideal) A B (ix3 n i j) = score (slab A n) (slab B n) i j := by
  rw [val_main_v0_apply]
  unfold score slab
  refine Finset.sum_congr rfl fun k _ => ?_
  rw [lidx_v0, ridx_v0]

/-! ## Along the rows -/

theorem rowMax_eq (n : Fin 32) (i : Fin 512) :
    val_main_v3 (F := Ideal) A B (ix2 n i) = rowMax (slab A n) (slab B n) i := by
  rw [val_main_v3_apply, val_main_v2_apply, val_main_cst_0_apply]
  unfold val_main_v1 rowMax
  refine congrArg (max negInf) ?_
  refine (Host.reduce_eq_fold_single FloatOps.maximumf _ _ reducesTo_S32x512x512_S32x512_d2 red_rows h_S_ (ix2 n i)).trans ?_
  show (Finset.univ : Finset (Fin 512)).fold max negInf (fun k => val_main_v0 (F := Ideal) A B (red_rows.lift (ix2 n i) k)) = _
  refine Finset.fold_congr fun k _ => ?_
  have e : red_rows.lift (ix2 n i) k = ix3 n i k :=
    funext fun a => Fin.ext (by match a with | ⟨0, _⟩ => rfl | ⟨1, _⟩ => rfl | ⟨2, _⟩ => rfl)
  rw [e]
  exact score_eq A B n i k

theorem rowExp_eq (n : Fin 32) (i j : Fin 512) :
    val_main_v7 (F := Ideal) A B (ix3 n i j) = rowExp (slab A n) (slab B n) i j := by
  rw [val_main_v7_apply, val_main_v6_apply, val_main_v5_apply, val_main_v4_apply, idx_v5, score_eq, rowMax_eq]
  rfl

theorem rowSum_eq (n : Fin 32) (i : Fin 512) :
    val_main_v8 (F := Ideal) A B (ix2 n i) = ∑ j : Fin 512, rowExp (slab A n) (slab B n) i j := by
  rw [val_main_v8_apply, val_main_cst_1_apply]
  show Ideal.ofBits .f32 0x00000000#32 + _ = _
  rw [Ideal.ofBits_zero_f32, zero_add]
  refine Finset.sum_congr rfl fun k _ => ?_
  rw [idx_v8, rowExp_eq]

theorem rowWeight_eq (n : Fin 32) (i j : Fin 512) :
    val_main_v11 (F := Ideal) A B (ix3 n i j) = rowWeight (slab A n) (slab B n) i j := by
  rw [val_main_v11_apply, val_main_v10_apply, val_main_v9_apply, idx_v10, rowExp_eq, rowSum_eq]
  rfl

theorem attendedA_eq (n : Fin 32) (i d : Fin 512) :
    val_main_v12 (F := Ideal) A B (ix3 n i d) = attendedA (slab A n) (slab B n) i d := by
  rw [val_main_v12_apply]
  unfold attendedA
  refine Finset.sum_congr rfl fun k _ => ?_
  rw [lidx_v12, ridx_v12, rowWeight_eq]
  rfl

/-! ## Along the columns -/

theorem colMax_eq (n : Fin 32) (j : Fin 512) :
    val_main_v15 (F := Ideal) A B (ix2 n j) = colMax (slab A n) (slab B n) j := by
  rw [val_main_v15_apply, val_main_v14_apply, val_main_cst_3_apply]
  unfold val_main_v13 colMax
  refine congrArg (max negInf) ?_
  refine (Host.reduce_eq_fold_single FloatOps.maximumf _ _ reducesTo_S32x512x512_S32x512_d1 red_cols h_S_ (ix2 n j)).trans ?_
  show (Finset.univ : Finset (Fin 512)).fold max negInf (fun k => val_main_v0 (F := Ideal) A B (red_cols.lift (ix2 n j) k)) = _
  refine Finset.fold_congr fun k _ => ?_
  have e : red_cols.lift (ix2 n j) k = ix3 n k j :=
    funext fun a => Fin.ext (by match a with | ⟨0, _⟩ => rfl | ⟨1, _⟩ => rfl | ⟨2, _⟩ => rfl)
  rw [e]
  exact score_eq A B n k j

theorem colExp_eq (n : Fin 32) (i j : Fin 512) :
    val_main_v19 (F := Ideal) A B (ix3 n i j) = colExp (slab A n) (slab B n) i j := by
  rw [val_main_v19_apply, val_main_v18_apply, val_main_v17_apply, val_main_v16_apply, idx_v17, score_eq, colMax_eq]
  rfl

theorem colSum_eq (n : Fin 32) (j : Fin 512) :
    val_main_v20 (F := Ideal) A B (ix2 n j) = ∑ i : Fin 512, colExp (slab A n) (slab B n) i j := by
  rw [val_main_v20_apply, val_main_cst_4_apply]
  show Ideal.ofBits .f32 0x00000000#32 + _ = _
  rw [Ideal.ofBits_zero_f32, zero_add]
  refine Finset.sum_congr rfl fun k _ => ?_
  rw [idx_v20, colExp_eq]

theorem colWeight_eq (n : Fin 32) (i j : Fin 512) :
    val_main_v23 (F := Ideal) A B (ix3 n i j) = colWeight (slab A n) (slab B n) i j := by
  rw [val_main_v23_apply, val_main_v22_apply, val_main_v21_apply, idx_v22, colExp_eq, colSum_eq]
  rfl

theorem attendedB_eq (n : Fin 32) (j d : Fin 512) :
    val_main_v24 (F := Ideal) A B (ix3 n j d) = attendedB (slab A n) (slab B n) j d := by
  rw [val_main_v24_apply]
  unfold attendedB
  refine Finset.sum_congr rfl fun k _ => ?_
  rw [lidx_v24, ridx_v24, colWeight_eq]
  rfl

/-! ## The four slabs joined along the last axis -/

/-- The slabs of a result as arrays. -/
abbrev quadR (x t : FVec Ideal S32x512x512 .f32) : Fin 4 → FVec Ideal S32x512x512 .f32 := fun q => match q with
  | ⟨0, _⟩ => x
  | ⟨1, _⟩ => t
  | ⟨2, _⟩ => subf x t
  | ⟨3, _⟩ => mulf x t

/-- Entry `(n, r, c)` of the joined array: slab `c / 512` at `(n, r, c % 512)`. -/
theorem join_apply (x t : FVec Ideal S32x512x512 .f32)
    (h : Shape.Concatenates [S32x512x512, S32x512x512, S32x512x512, S32x512x512] S32x512x2048 2)
    (n : Fin 32) (r : Fin 512) (c : Fin 2048) :
    concatenate S32x512x2048 2 [⟨S32x512x512, x⟩, ⟨S32x512x512, t⟩, ⟨S32x512x512, subf x t⟩, ⟨S32x512x512, mulf x t⟩] h (ix3 n r c)
      = quadR x t ⟨c.val / 512, by have := c.isLt; omega⟩ (ix3 n r ⟨c.val % 512, Nat.mod_lt _ (by decide)⟩) := by
  show concatenate S32x512x2048 2 (List.ofFn fun q : Fin 4 => (⟨S32x512x512, quadR x t q⟩ : (s : Shape) × (s.Idx → _))) _ (ix3 n r c) = _
  exact concatenate_ofFn_apply (t := S32x512x2048) (s₁ := S32x512x512) (2 : Fin 3) (quadR x t) _ rfl 512 rfl (ix3 n r c)
    ⟨c.val / 512, by have := c.isLt; omega⟩ rfl (ix3 n r ⟨c.val % 512, Nat.mod_lt _ (by decide)⟩) rfl
    (fun b hb => by match b with | ⟨0, _⟩ => rfl | ⟨1, _⟩ => rfl | ⟨2, _⟩ => exact absurd rfl hb)

theorem resultA_eq (n : Fin 32) (r : Fin 512) (c : Fin 2048) :
    val_main_v27 (F := Ideal) A B (ix3 n r c) = resultA A B n r c := by
  refine (join_apply A (val_main_v12 (F := Ideal) A B) _ n r c).trans ?_
  unfold resultA features
  generalize (⟨c.val / 512, _⟩ : Fin 4) = q
  generalize (⟨c.val % 512, _⟩ : Fin 512) = d
  match q with
  | ⟨0, _⟩ => rfl
  | ⟨1, _⟩ => exact attendedA_eq A B n r d
  | ⟨2, _⟩ => exact congrArg (A (ix3 n r d) - ·) (attendedA_eq A B n r d)
  | ⟨3, _⟩ => exact congrArg (A (ix3 n r d) * ·) (attendedA_eq A B n r d)

theorem resultB_eq (n : Fin 32) (r : Fin 512) (c : Fin 2048) :
    val_main_v30 (F := Ideal) A B (ix3 n r c) = resultB A B n r c := by
  refine (join_apply B (val_main_v24 (F := Ideal) A B) _ n r c).trans ?_
  unfold resultB features
  generalize (⟨c.val / 512, _⟩ : Fin 4) = q
  generalize (⟨c.val % 512, _⟩ : Fin 512) = d
  match q with
  | ⟨0, _⟩ => rfl
  | ⟨1, _⟩ => exact attendedB_eq A B n r d
  | ⟨2, _⟩ => exact congrArg (B (ix3 n r d) - ·) (attendedB_eq A B n r d)
  | ⟨3, _⟩ => exact congrArg (B (ix3 n r d) * ·) (attendedB_eq A B n r d)

/-- The first result stage is `arrayA` of the arguments. -/
theorem arrayA_eq : val_main_v27 (F := Ideal) A B = arrayA A B := by
  funext y
  obtain ⟨n, r, c, rfl⟩ : ∃ (n : Fin 32) (r : Fin 512) (c : Fin 2048), y = ix3 n r c := ⟨y 0, y 1, y 2, eq_ix3 y⟩
  exact resultA_eq A B n r c

/-- The second result stage is `arrayB` of the arguments. -/
theorem arrayB_eq : val_main_v30 (F := Ideal) A B = arrayB A B := by
  funext y
  obtain ⟨n, r, c, rfl⟩ : ∃ (n : Fin 32) (r : Fin 512) (c : Fin 2048), y = ix3 n r c := ⟨y 0, y 1, y 2, eq_ix3 y⟩
  exact resultB_eq A B n r c

end Cert.ReferenceIdeal.RefValue

end
-- ==== Proof.lean ====
/-
  Dual-direction softmax co-attention: the kernel against its jnp reference, over the extended reals.

  For each of the 32 batch elements, with `a` and `b` the element's 512 × 512 matrices, both programs compute the scores
  `e i j = ∑ d, a i d * b j d`; the softmax of `e` along each row, whose weights average the rows of `b` into the
  attended matrix of `a`; the softmax of `e` along each column, whose weights average the rows of `a` into the attended
  matrix of `b`; and, for each of the two, the concatenation `[x, t, x - t, x * t]` of the matrix with its attended
  matrix (Proof/CoAttention.lean states all this as `arrayA` and `arrayB`).

  The kernel does one batch element per grid point: it narrows its operands to bf16 before each of its three matrix
  products (the identity on the extended reals), multiplies into a zero accumulator, and transposes where the reference
  contracts another axis. The reference does all batches at once with three batched `dot_general`s. At the ideal
  instance the two agree entry by entry, with no use of the inputs' finiteness: the only facts about the extended reals
  are that a finite sum and a finite maximum do not depend on how their terms are indexed, and `0 + s = s` for the
  reference's sums, which start from zero.

  The kernel's run and its arrays after it: Proof/ResultArrays.lean (over Proof/AttentionBody.lean and
  Proof/BlockOps.lean). The reference's run and its results: Proof/ReferenceResults.lean and Proof/ReferenceValue.lean.
-/
import proofs.«116930_j74878459838619_1_alg».proof.Defs
import proofs.«116930_j74878459838619_1_alg».proof.Proof.Gen.Kernel
import proofs.«116930_j74878459838619_1_alg».proof.Proof.Gen.Kernel.Skeleton
import proofs.«116930_j74878459838619_1_alg».proof.Proof.Gen.Kernel.Launch
import proofs.«116930_j74878459838619_1_alg».proof.Proof.Gen.Kernel.Points
import proofs.«116930_j74878459838619_1_alg».proof.Proof.Gen.Kernel.Frame
import proofs.«116930_j74878459838619_1_alg».proof.Proof.Gen.KernelIdeal
import proofs.«116930_j74878459838619_1_alg».proof.Proof.Gen.KernelIdeal.Skeleton
import proofs.«116930_j74878459838619_1_alg».proof.Proof.Gen.KernelIdeal.Launch
import proofs.«116930_j74878459838619_1_alg».proof.Proof.Gen.KernelIdeal.Points
import proofs.«116930_j74878459838619_1_alg».proof.Proof.Gen.KernelIdeal.Frame
import proofs.«116930_j74878459838619_1_alg».proof.Proof.Gen.ReferenceIdeal
import proofs.«116930_j74878459838619_1_alg».proof.Proof.Gen.Pre_finite_inputs
import proofs.«116930_j74878459838619_1_alg».proof.Proof.ResultArrays
import proofs.«116930_j74878459838619_1_alg».proof.Proof.ReferenceResults
import proofs.«116930_j74878459838619_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2) (Cert.ReferenceIdeal.Results.run (F := Ideal) m ρ)

/-- From memories that agree on the two arguments, the idealized kernel ends with its results at `arrayA` and `arrayB`
    of the arguments, and the reference with its results at its last stages of the same arguments, which are those two
    arrays. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Results.run (F := Ideal) m' ρ')
  · rw [(hagree c).1, (hagree c).2]
    exact Cert.ReferenceIdeal.RefValue.arrayA_eq _ _
  · rw [(hagree c).1, (hagree c).2]
    exact Cert.ReferenceIdeal.RefValue.arrayB_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
